-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2097152x64 : Shape := ⟨2, ![2097152, 64]⟩
abbrev S64x4x64x64 : Shape := ⟨4, ![64, 4, 64, 64]⟩
abbrev S64x4x64 : Shape := ⟨3, ![64, 4, 64]⟩
abbrev S_ : Shape := ⟨0, ![]⟩

class Facts : Prop where
  bcast_S_S2097152x64 : S_.BroadcastsInDim S2097152x64 (![] : Fin 0 → Fin S2097152x64.rank)
  reducesTo_S2097152x64_S_d0_1 : S2097152x64.ReducesTo [0, 1] S_
  h_S_ : 0 < S_.numel
  bcast_S_S64x4x64x64 : S_.BroadcastsInDim S64x4x64x64 (![] : Fin 0 → Fin S64x4x64x64.rank)
  reducesTo_S64x4x64x64_S_d0_1_2_3 : S64x4x64x64.ReducesTo [0, 1, 2, 3] S_
  bcast_S_S64x4x64 : S_.BroadcastsInDim S64x4x64 (![] : Fin 0 → Fin S64x4x64.rank)
  reducesTo_S64x4x64_S_d0_1_2 : S64x4x64.ReducesTo [0, 1, 2] S_

variable [Facts]

def fn {F : FTy → Type} [FloatOps F] (main_arg0 : FVec F S2097152x64 .f32) (main_arg1 : FVec F S64x4x64x64 .f32) (main_arg2 : FVec F S64x4x64 .f32) : IVec S_ 1 :=
  let main_v0 : FVec F S2097152x64 .f32 := Host.absf main_arg0
  let main_cst : FVec F S_ .f32 := constant S_ .f32 0x7F800000#32
  let main_v1 : FVec F S2097152x64 .f32 := broadcastInDim S2097152x64 ![] bcast_S_S2097152x64 main_cst
  let main_v2 : IVec S2097152x64 1 := cmpf .olt main_v0 main_v1
  let main_c : IVec S_ 1 := constantI S_ 1 1#1
  let main_v3 : IVec S_ 1 := (fun x v => Host.reduce IntOp.andi x v reducesTo_S2097152x64_S_d0_1 h_S_) main_v2 main_c
  let main_v4 : FVec F S64x4x64x64 .f32 := Host.absf main_arg1
  let main_cst_0 : FVec F S_ .f32 := constant S_ .f32 0x7F800000#32
  let main_v5 : FVec F S64x4x64x64 .f32 := broadcastInDim S64x4x64x64 ![] bcast_S_S64x4x64x64 main_cst_0
  let main_v6 : IVec S64x4x64x64 1 := cmpf .olt main_v4 main_v5
  let main_c_1 : IVec S_ 1 := constantI S_ 1 1#1
  let main_v7 : IVec S_ 1 := (fun x v => Host.reduce IntOp.andi x v reducesTo_S64x4x64x64_S_d0_1_2_3 h_S_) main_v6 main_c_1
  let main_v8 : IVec S_ 1 := andi main_v3 main_v7
  let main_v9 : FVec F S64x4x64 .f32 := Host.absf main_arg2
  let main_cst_2 : FVec F S_ .f32 := constant S_ .f32 0x7F800000#32
  let main_v10 : FVec F S64x4x64 .f32 := broadcastInDim S64x4x64 ![] bcast_S_S64x4x64 main_cst_2
  let main_v11 : IVec S64x4x64 1 := cmpf .olt main_v9 main_v10
  let main_c_3 : IVec S_ 1 := constantI S_ 1 1#1
  let main_v12 : IVec S_ 1 := (fun x v => Host.reduce IntOp.andi x v reducesTo_S64x4x64_S_d0_1_2 h_S_) main_v11 main_c_3
  let main_v13 : IVec S_ 1 := andi main_v8 main_v12
  main_v13
-- ==== Kernel.lean ====
abbrev S2097152x64 : Shape := ⟨2, ![2097152, 64]⟩
abbrev S64x4x64x64 : Shape := ⟨4, ![64, 4, 64, 64]⟩
abbrev S64x4x64 : Shape := ⟨3, ![64, 4, 64]⟩
abbrev S64x32768x64 : Shape := ⟨3, ![64, 32768, 64]⟩
abbrev S1x4096x64 : Shape := ⟨3, ![1, 4096, 64]⟩
abbrev S1x4x64x64 : Shape := ⟨4, ![1, 4, 64, 64]⟩
abbrev S1x4x64 : Shape := ⟨3, ![1, 4, 64]⟩
abbrev S4096x64 : Shape := ⟨2, ![4096, 64]⟩
abbrev S1x1x64x64 : Shape := ⟨4, ![1, 1, 64, 64]⟩
abbrev S64x64 : Shape := ⟨2, ![64, 64]⟩
abbrev S1x1x64 : Shape := ⟨3, ![1, 1, 64]⟩
abbrev S64 : Shape := ⟨1, ![64]⟩
abbrev S1x64 : Shape := ⟨2, ![1, 64]⟩

abbrev nBuf : Space → Nat
  | .hbm => 6
  | .vmem => 8
  | .smem => 0
  | _ => 0

abbrev bufTy : (tb : Table) → Fin (tcTables nBuf tb) → BufTy
  | .hbm, ⟨0, _⟩ => ⟨S2097152x64, .f32⟩
  | .hbm, ⟨1, _⟩ => ⟨S64x4x64x64, .f32⟩
  | .hbm, ⟨2, _⟩ => ⟨S64x4x64, .f32⟩
  | .hbm, ⟨3, _⟩ => ⟨S64x32768x64, .f32⟩
  | .hbm, ⟨4, _⟩ => ⟨S64x32768x64, .f32⟩
  | .hbm, ⟨5, _⟩ => ⟨S2097152x64, .f32⟩
  | .local _ .vmem, ⟨0, _⟩ => ⟨S1x4096x64, .f32⟩
  | .local _ .vmem, ⟨1, _⟩ => ⟨S1x4096x64, .f32⟩
  | .local _ .vmem, ⟨2, _⟩ => ⟨S1x4x64x64, .f32⟩
  | .local _ .vmem, ⟨3, _⟩ => ⟨S1x4x64x64, .f32⟩
  | .local _ .vmem, ⟨4, _⟩ => ⟨S1x4x64, .f32⟩
  | .local _ .vmem, ⟨5, _⟩ => ⟨S1x4x64, .f32⟩
  | .local _ .vmem, ⟨6, _⟩ => ⟨S1x4096x64, .f32⟩
  | .local _ .vmem, ⟨7, _⟩ => ⟨S1x4096x64, .f32⟩
  | _, _ => ⟨S2097152x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![64, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x4096x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4x64x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x4096x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S2097152x64_S64x32768x64 : S2097152x64.ShapeCasts S64x32768x64
  inb_S1x4096x64_S1x4096x64_0_0_0 : ∀ a, (![0, 0, 0] : Fin 3 → Nat) a + S1x4096x64.size a ≤ S1x4096x64.size a
  h_S1x4096x64 : 0 < S1x4096x64.numel
  shapeCasts_S1x4096x64_S4096x64 : S1x4096x64.ShapeCasts S4096x64
  inb_S1x4x64x64_S1x1x64x64_0_0_0_0 : ∀ a, (![0, 0, 0, 0] : Fin 4 → Nat) a + S1x1x64x64.size a ≤ S1x4x64x64.size a
  h_S1x1x64x64 : 0 < S1x1x64x64.numel
  shapeCasts_S1x1x64x64_S64x64 : S1x1x64x64.ShapeCasts S64x64
  inb_S1x4x64_S1x1x64_0_0_0 : ∀ a, (![0, 0, 0] : Fin 3 → Nat) a + S1x1x64.size a ≤ S1x4x64.size a
  h_S1x1x64 : 0 < S1x1x64.numel
  shapeCasts_S1x1x64_S64 : S1x1x64.ShapeCasts S64
  shapeCasts_S64_S1x64 : S64.ShapeCasts S1x64
  broadcasts_S1x64_S4096x64 : S1x64.Broadcasts S4096x64
  inb_S1x4x64x64_S1x1x64x64_0_1_0_0 : ∀ a, (![0, 1, 0, 0] : Fin 4 → Nat) a + S1x1x64x64.size a ≤ S1x4x64x64.size a
  inb_S1x4x64_S1x1x64_0_1_0 : ∀ a, (![0, 1, 0] : Fin 3 → Nat) a + S1x1x64.size a ≤ S1x4x64.size a
  inb_S1x4x64x64_S1x1x64x64_0_2_0_0 : ∀ a, (![0, 2, 0, 0] : Fin 4 → Nat) a + S1x1x64x64.size a ≤ S1x4x64x64.size a
  inb_S1x4x64_S1x1x64_0_2_0 : ∀ a, (![0, 2, 0] : Fin 3 → Nat) a + S1x1x64.size a ≤ S1x4x64.size a
  inb_S1x4x64x64_S1x1x64x64_0_3_0_0 : ∀ a, (![0, 3, 0, 0] : Fin 4 → Nat) a + S1x1x64x64.size a ≤ S1x4x64x64.size a
  inb_S1x4x64_S1x1x64_0_3_0 : ∀ a, (![0, 3, 0] : Fin 3 → Nat) a + S1x1x64.size a ≤ S1x4x64.size a
  shapeCasts_S4096x64_S1x4096x64 : S4096x64.ShapeCasts S1x4096x64
  shapeCasts_S64x32768x64_S2097152x64 : S64x32768x64.ShapeCasts S2097152x64
  dot_S4096x64_S64x64_S4096x64_1_1_0_0_n_n_wf : DotDims.WF S4096x64 S64x64 S4096x64 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x64.size a ≤ S64x32768x64.size a
  hwx0_0 : ∀ i : grid0.Coords, EltTy.bits .f32 = 32 ∨ (Rect.block (s := S64x32768x64) S1x4096x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4x64x64.size a ≤ S64x4x64x64.size a
  hwx0_1 : ∀ i : grid0.Coords, EltTy.bits .f32 = 32 ∨ (Rect.block (s := S64x4x64x64) S1x4x64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x4x64.size a ≤ S64x4x64.size a
  hwx0_2 : ∀ i : grid0.Coords, EltTy.bits .f32 = 32 ∨ (Rect.block (s := S64x4x64) S1x4x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x4096x64.size a ≤ S64x32768x64.size a
  hwx0_3 : ∀ i : grid0.Coords, EltTy.bits .f32 = 32 ∨ (Rect.block (s := S64x32768x64) S1x4096x64.size (cc0_transform_3 i) (hinb0_3 i)).WholeWords (EltTy.packing .f32)

variable [Facts₀]

def dot_S4096x64_S64x64_S4096x64_1_1_0_0_n_n : DotDims S4096x64 S64x64 S4096x64 where
  lhsContracting := [1]
  rhsContracting := [1]
  lhsNonContracting := [0]
  rhsNonContracting := [0]
  lhsBatch := []
  rhsBatch := []
  wf := dot_S4096x64_S64x64_S4096x64_1_1_0_0_n_n_wf

abbrev win0_0 : Pipeline.Window sig grid0 :=
  Pipeline.Window.ofSpec (Memref.whole main_v0) S1x4096x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x4x64x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x4x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x4096x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S2097152x64 : Shape := ⟨2, ![2097152, 64]⟩
abbrev S64x4x64x64 : Shape := ⟨4, ![64, 4, 64, 64]⟩
abbrev S64x4x64 : Shape := ⟨3, ![64, 4, 64]⟩
abbrev S64x32768x64 : Shape := ⟨3, ![64, 32768, 64]⟩
abbrev S64x1x64x64 : Shape := ⟨4, ![64, 1, 64, 64]⟩
abbrev S64x64x64 : Shape := ⟨3, ![64, 64, 64]⟩
abbrev S64x1x64 : Shape := ⟨3, ![64, 1, 64]⟩
abbrev S64x64 : Shape := ⟨2, ![64, 64]⟩
abbrev S_ : Shape := ⟨0, ![]⟩

abbrev nBuf : Space → Nat
  | .hbm => 49
  | .vmem => 0
  | .smem => 0
  | _ => 0

abbrev bufTy : (tb : Table) → Fin (tcTables nBuf tb) → BufTy
  | .hbm, ⟨0, _⟩ => ⟨S2097152x64, .f32⟩
  | .hbm, ⟨1, _⟩ => ⟨S64x4x64x64, .f32⟩
  | .hbm, ⟨2, _⟩ => ⟨S64x4x64, .f32⟩
  | .hbm, ⟨3, _⟩ => ⟨S64x32768x64, .f32⟩
  | .hbm, ⟨4, _⟩ => ⟨S64x1x64x64, .f32⟩
  | .hbm, ⟨5, _⟩ => ⟨S64x64x64, .f32⟩
  | .hbm, ⟨6, _⟩ => ⟨S64x32768x64, .f32⟩
  | .hbm, ⟨7, _⟩ => ⟨S64x1x64, .f32⟩
  | .hbm, ⟨8, _⟩ => ⟨S64x64, .f32⟩
  | .hbm, ⟨9, _⟩ => ⟨S64x1x64, .f32⟩
  | .hbm, ⟨10, _⟩ => ⟨S64x32768x64, .f32⟩
  | .hbm, ⟨11, _⟩ => ⟨S64x32768x64, .f32⟩
  | .hbm, ⟨12, _⟩ => ⟨S_, .f32⟩
  | .hbm, ⟨13, _⟩ => ⟨S64x32768x64, .f32⟩
  | .hbm, ⟨14, _⟩ => ⟨S64x32768x64, .f32⟩
  | .hbm, ⟨15, _⟩ => ⟨S64x1x64x64, .f32⟩
  | .hbm, ⟨16, _⟩ => ⟨S64x64x64, .f32⟩
  | .hbm, ⟨17, _⟩ => ⟨S64x32768x64, .f32⟩
  | .hbm, ⟨18, _⟩ => ⟨S64x1x64, .f32⟩
  | .hbm, ⟨19, _⟩ => ⟨S64x64, .f32⟩
  | .hbm, ⟨20, _⟩ => ⟨S64x1x64, .f32⟩
  | .hbm, ⟨21, _⟩ => ⟨S64x32768x64, .f32⟩
  | .hbm, ⟨22, _⟩ => ⟨S64x32768x64, .f32⟩
  | .hbm, ⟨23, _⟩ => ⟨S_, .f32⟩
  | .hbm, ⟨24, _⟩ => ⟨S64x32768x64, .f32⟩
  | .hbm, ⟨25, _⟩ => ⟨S64x32768x64, .f32⟩
  | .hbm, ⟨26, _⟩ => ⟨S64x1x64x64, .f32⟩
  | .hbm, ⟨27, _⟩ => ⟨S64x64x64, .f32⟩
  | .hbm, ⟨28, _⟩ => ⟨S64x32768x64, .f32⟩
  | .hbm, ⟨29, _⟩ => ⟨S64x1x64, .f32⟩
  | .hbm, ⟨30, _⟩ => ⟨S64x64, .f32⟩
  | .hbm, ⟨31, _⟩ => ⟨S64x1x64, .f32⟩
  | .hbm, ⟨32, _⟩ => ⟨S64x32768x64, .f32⟩
  | .hbm, ⟨33, _⟩ => ⟨S64x32768x64, .f32⟩
  | .hbm, ⟨34, _⟩ => ⟨S_, .f32⟩
  | .hbm, ⟨35, _⟩ => ⟨S64x32768x64, .f32⟩
  | .hbm, ⟨36, _⟩ => ⟨S64x32768x64, .f32⟩
  | .hbm, ⟨37, _⟩ => ⟨S64x1x64x64, .f32⟩
  | .hbm, ⟨38, _⟩ => ⟨S64x64x64, .f32⟩
  | .hbm, ⟨39, _⟩ => ⟨S64x32768x64, .f32⟩
  | .hbm, ⟨40, _⟩ => ⟨S64x1x64, .f32⟩
  | .hbm, ⟨41, _⟩ => ⟨S64x64, .f32⟩
  | .hbm, ⟨42, _⟩ => ⟨S64x1x64, .f32⟩
  | .hbm, ⟨43, _⟩ => ⟨S64x32768x64, .f32⟩
  | .hbm, ⟨44, _⟩ => ⟨S64x32768x64, .f32⟩
  | .hbm, ⟨45, _⟩ => ⟨S_, .f32⟩
  | .hbm, ⟨46, _⟩ => ⟨S64x32768x64, .f32⟩
  | .hbm, ⟨47, _⟩ => ⟨S64x32768x64, .f32⟩
  | .hbm, ⟨48, _⟩ => ⟨S2097152x64, .f32⟩
  | _, _ => ⟨S2097152x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_call0_cst : Ref sig .tc := ⟨.hbm, 12, rfl⟩
abbrev main_call0_v0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_call1_cst : Ref sig .tc := ⟨.hbm, 23, rfl⟩
abbrev main_call1_v0 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_call2_cst : Ref sig .tc := ⟨.hbm, 34, rfl⟩
abbrev main_call2_v0 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_call3_cst : Ref sig .tc := ⟨.hbm, 45, rfl⟩
abbrev main_call3_v0 : Ref sig .tc := ⟨.hbm, 46, rfl⟩
abbrev main_v36 : Ref sig .tc := ⟨.hbm, 47, rfl⟩
abbrev main_v37 : Ref sig .tc := ⟨.hbm, 48, rfl⟩

abbrev nD : Nat := 1
abbrev τ : Topo := Topo.v7x

variable {F : FTy → Type} [FloatOps F]

class Facts₀ : Prop where
  shapeCasts_S2097152x64_S64x32768x64 : S2097152x64.ShapeCasts S64x32768x64
  slices_S64x4x64x64_S64x1x64x64_0_0_0_0 : S64x4x64x64.Slices ![0, 0, 0, 0] S64x1x64x64
  shapeCasts_S64x1x64x64_S64x64x64 : S64x1x64x64.ShapeCasts S64x64x64
  slices_S64x4x64_S64x1x64_0_0_0 : S64x4x64.Slices ![0, 0, 0] S64x1x64
  shapeCasts_S64x1x64_S64x64 : S64x1x64.ShapeCasts S64x64
  bcast_S64x64_S64x1x64_0_2 : S64x64.BroadcastsInDim S64x1x64 (![0, 2] : Fin 2 → Fin S64x1x64.rank)
  bcast_S64x1x64_S64x32768x64_0_1_2 : S64x1x64.BroadcastsInDim S64x32768x64 (![0, 1, 2] : Fin 3 → Fin S64x32768x64.rank)
  bcast_S_S64x32768x64 : S_.BroadcastsInDim S64x32768x64 (![] : Fin 0 → Fin S64x32768x64.rank)
  slices_S64x4x64x64_S64x1x64x64_0_1_0_0 : S64x4x64x64.Slices ![0, 1, 0, 0] S64x1x64x64
  slices_S64x4x64_S64x1x64_0_1_0 : S64x4x64.Slices ![0, 1, 0] S64x1x64
  slices_S64x4x64x64_S64x1x64x64_0_2_0_0 : S64x4x64x64.Slices ![0, 2, 0, 0] S64x1x64x64
  slices_S64x4x64_S64x1x64_0_2_0 : S64x4x64.Slices ![0, 2, 0] S64x1x64
  slices_S64x4x64x64_S64x1x64x64_0_3_0_0 : S64x4x64x64.Slices ![0, 3, 0, 0] S64x1x64x64
  slices_S64x4x64_S64x1x64_0_3_0 : S64x4x64.Slices ![0, 3, 0] S64x1x64
  shapeCasts_S64x32768x64_S2097152x64 : S64x32768x64.ShapeCasts S2097152x64
  dot_S64x32768x64_S64x64x64_S64x32768x64_2_2_1_1_0_0_wf : DotDims.WF S64x32768x64 S64x64x64 S64x32768x64 [2] [2] [1] [1] [0] [0]

variable [Facts₀]

def dot_S64x32768x64_S64x64x64_S64x32768x64_2_2_1_1_0_0 : DotDims S64x32768x64 S64x64x64 S64x32768x64 where
  lhsContracting := [2]
  rhsContracting := [2]
  lhsNonContracting := [1]
  rhsNonContracting := [1]
  lhsBatch := [0]
  rhsBatch := [0]
  wf := dot_S64x32768x64_S64x64x64_S64x32768x64_2_2_1_1_0_0_wf

class Facts : Prop extends Facts₀ where

variable [Facts]
-- ==== Proof.Spec.lean ====
/-
  The function both programs compute, stated once on extended reals.

  The 2,097,152 rows are split into 64 consecutive groups of 32,768 rows; group g has its own four affine maps
  W[g, l] (64 × 64, stored output-feature first) and offsets B[g, l]. One layer sends a row x to

      f  ↦  max (∑ d, x d · W[g, l] f d  +  B[g, l] f) 0,

  and a row of group g passes through layers 0, 1, 2, 3 in turn. Nothing here needs the entries to be finite: the two
  programs form the same sum over the same index set, the same offset and the same maximum, so no law of arithmetic
  beyond equality of terms is used.

  Rows are addressed as (group, row in the group): the array [2097152, 64] viewed as [64, 32768, 64]. Both programs make
  exactly this change of view before and after, so the comparison is made on the three-axis view.
-/
import Idealize.ShloMosaic.Lib.ValueIdx
import Idealize.ShloMosaic.PureOps.Ideal.Laws

noncomputable section

open scoped BigOperators

namespace Cert.GroupedMlp

open Idealize.ShloMosaic Idealize.ShloMosaic.ValueIdx

/-- The float zero a rectifier compares with, as the extended real its word encodes (left unevaluated: both programs
    carry the same word). -/
abbrev fzero : EReal := Ideal.ofBits .f32 0x00000000#32

/-- One affine map followed by the rectifier, on one row: `w f d` is the weight from input feature `d` to output
    feature `f`. -/
def layer (w : Fin 64 → Fin 64 → EReal) (b : Fin 64 → EReal) (x : Fin 64 → EReal) : Fin 64 → EReal :=
  fun f => max ((∑ d : Fin 64, x d * w f d) + b f) fzero

/-- The weights of every group and layer: [group, layer, output feature, input feature]. -/
abbrev Weights : Type := (⟨4, ![64, 4, 64, 64]⟩ : Shape).Idx → EReal
/-- The offsets of every group and layer: [group, layer, output feature]. -/
abbrev Offsets : Type := (⟨3, ![64, 4, 64]⟩ : Shape).Idx → EReal
/-- The rows by group: [group, row in the group, feature]. -/
abbrev Rows : Type := (⟨3, ![64, 32768, 64]⟩ : Shape).Idx → EReal

/-- Layer `l` of group `g`. -/
def layerOf (W : Weights) (B : Offsets) (g : Fin 64) (l : Fin 4) (x : Fin 64 → EReal) : Fin 64 → EReal :=
  layer (fun f d => W (ix4 g l f d)) (fun f => B (ix3 g l f)) x

/-- The four layers of group `g`, in order, on one row. -/
def net (W : Weights) (B : Offsets) (g : Fin 64) (x : Fin 64 → EReal) : Fin 64 → EReal :=
  layerOf W B g 3 (layerOf W B g 2 (layerOf W B g 1 (layerOf W B g 0 x)))

/-- Every row through its group's four layers. -/
def result (X : Rows) (W : Weights) (B : Offsets) : Rows :=
  fun j => net W B (j 0) (fun d => X (ix3 (j 0) (j 1) d)) (j 2)

theorem result_apply (X : Rows) (W : Weights) (B : Offsets) (g : Fin 64) (n : Fin 32768) (f : Fin 64) :
    result X W B (ix3 g n f) = net W B g (fun d => X (ix3 g n d)) f := rfl

end Cert.GroupedMlp

end
-- ==== Proof.LibDotRowsByRows.lean ====
/-
  A matrix product of rows against rows: [a, k] · [b, k] → [a, b], no batch axis, the SECOND axis of both operands
  contracted (extent k), the rows of the result from the left operand and its columns from the rows of the right. It is
  x · wᵀ for a weight matrix stored output-feature first.

  The dimension numbers place the coordinates: the left operand is read at (row of the result, contraction position),
  the right at (column of the result, contraction position). So at the ideal values, where both the kernel's product into
  a zero accumulator and the host's product are the exact sum over the contraction index, entry (p, q) of either is
  ∑ κ < k, l (p, κ) · r (q, κ).
-/
import Idealize.ShloMosaic.Lib.ValueIdx
import Idealize.ShloMosaic.PureOps.Ideal.Laws

namespace Cert.DotRowsByRows

open Idealize.ShloMosaic Idealize.ShloMosaic.ValueIdx

variable {a k b : ℕ} (d : DotDims ⟨2, ![a, k]⟩ ⟨2, ![b, k]⟩ ⟨2, ![a, b]⟩)

/-- The dimension numbers of a product of rows against rows. -/
structure RowsByRows : Prop where
  lhsBatch : d.lhsBatch = []
  lhsNon : d.lhsNonContracting = [0]
  lhsContr : d.lhsContracting = [1]
  rhsBatch : d.rhsBatch = []
  rhsNon : d.rhsNonContracting = [0]
  rhsContr : d.rhsContracting = [1]

variable {d}

/-- The left operand's row is the result's row. -/
theorem lhs_row (h : RowsByRows d) (j : (⟨2, ![a, b]⟩ : Shape).Idx) (q : d.contr.Idx) : (d.lhsIdx j q 0).val = (j 0).val := by
  unfold DotDims.lhsIdx
  rw [dif_neg (by rw [h.lhsBatch]; exact List.not_mem_nil), dif_pos (by rw [h.lhsNon]; exact List.mem_singleton.mpr rfl)]
  simp only [Fin.val_cast]
  have key : ∀ (p : Nat) (hp : p < 2), p = 0 → (j ⟨p, hp⟩).val = (j 0).val := fun p hp e => by subst e; rfl
  exact key _ _ (by simp [h.lhsBatch, h.lhsNon])

/-- The right operand's row is the result's column. -/
theorem rhs_row (h : RowsByRows d) (j : (⟨2, ![a, b]⟩ : Shape).Idx) (q : d.contr.Idx) : (d.rhsIdx j q 0).val = (j 1).val := by
  unfold DotDims.rhsIdx
  rw [dif_neg (by rw [h.rhsBatch]; exact List.not_mem_nil), dif_pos (by rw [h.rhsNon]; exact List.mem_singleton.mpr rfl)]
  simp only [Fin.val_cast]
  have key : ∀ (p : Nat) (hp : p < 2), p = 1 → (j ⟨p, hp⟩).val = (j 1).val := fun p hp e => by subst e; rfl
  exact key _ _ (by simp [h.lhsBatch, h.lhsNon, h.rhsNon])

/-- The contraction over the record's own index type, re-indexed to κ < k. -/
theorem sum_contr (h : RowsByRows d) (hr : d.contr.rank = 1) (hs : d.contr.size ⟨0, by omega⟩ = k)
    (l : (⟨2, ![a, k]⟩ : Shape).Idx → EReal) (r : (⟨2, ![b, k]⟩ : Shape).Idx → EReal) (p : Fin a) (q : Fin b) :
    ∑ κ : d.contr.Idx, l (d.lhsIdx (ix2 p q) κ) * r (d.rhsIdx (ix2 p q) κ) = ∑ κ : Fin k, l (ix2 p κ) * r (ix2 q κ) := by
  rw [← Equiv.sum_comp (contrEquiv1 d k hr hs).symm]
  refine Finset.sum_congr rfl fun κ _ => ?_
  have hk := contrEquiv1_symm_val d k hr hs κ
  have el : d.lhsIdx (ix2 p q) ((contrEquiv1 d k hr hs).symm κ) = ix2 p κ := funext fun x => Fin.ext (by
    match x with
    | ⟨0, _⟩ => exact lhs_row h _ _
    | ⟨1, _⟩ => exact (d.lhsIdx_val_of_single h.lhsContr _ _).trans hk)
  have er : d.rhsIdx (ix2 p q) ((contrEquiv1 d k hr hs).symm κ) = ix2 q κ := funext fun x => Fin.ext (by
    match x with
    | ⟨0, _⟩ => exact rhs_row h _ _
    | ⟨1, _⟩ => exact (d.rhsIdx_val_of_single h.rhsContr _ _).trans hk)
  rw [el, er]

/-- The kernel's product into a zero accumulator, at an entry. -/
theorem matmul_zero_apply {φ₁ φ₂ : FTy} (h : RowsByRows d) (hr : d.contr.rank = 1) (hs : d.contr.size ⟨0, by omega⟩ = k)
    (prec : Option ContractPrecision) (l : FVec Ideal ⟨2, ![a, k]⟩ φ₁) (r : FVec Ideal ⟨2, ![b, k]⟩ φ₂) (p : Fin a) (q : Fin b) :
    matmul d prec l r (constant ⟨2, ![a, b]⟩ .f32 0x00000000#32) (ix2 p q) = ∑ κ : Fin k, l (ix2 p κ) * r (ix2 q κ) :=
  (Ideal.matmul_constant_zero_apply d prec l r (ix2 p q)).trans (sum_contr h hr hs l r p q)

/-- The host's product, at an entry. -/
theorem dotGeneral_apply {φ₁ φ₂ : FTy} (h : RowsByRows d) (hr : d.contr.rank = 1) (hs : d.contr.size ⟨0, by omega⟩ = k)
    (prec : Option ContractPrecision) (l : FVec Ideal ⟨2, ![a, k]⟩ φ₁) (r : FVec Ideal ⟨2, ![b, k]⟩ φ₂) (p : Fin a) (q : Fin b) :
    Host.dotGeneral d prec l r (ix2 p q) = ∑ κ : Fin k, l (ix2 p κ) * r (ix2 q κ) := by
  simp only [Host.dotGeneral]
  exact (Ideal.dotGeneral_apply d prec _ l r (ix2 p q)).trans (sum_contr h hr hs l r p q)

end Cert.DotRowsByRows
-- ==== Proof.KernelBody.lean ====
/-
  What one run of the kernel's body leaves in its output block, entry by entry.

  The body holds a block of 4,096 rows of one group, that group's four weight matrices and its four offset vectors. It
  applies the four layers in turn to the whole block: a product of the rows against the rows of the layer's weights into
  a zero accumulator, plus the offsets spread along the rows, then the maximum with zero. At entry (n, f) each such step is
  the specification's layer applied to row n, so the stored block at (0, n, f) is the four layers applied to row n of the
  loaded block.
-/
import proofs.«149812_j30004641530481_1_alg».proof.Proof.Gen.KernelIdeal.Frame
import proofs.«149812_j30004641530481_1_alg».proof.Proof.Spec
import proofs.«149812_j30004641530481_1_alg».proof.Proof.LibDotRowsByRows
import Idealize.ShloMosaic.Lib.Pipeline.Value
import Idealize.ShloMosaic.Lib.ValueIdx

noncomputable section

open scoped BigOperators

namespace Cert.KernelIdeal.Body

open Cert.KernelIdeal Cert.KernelIdeal.Gen Idealize.ShloMosaic Idealize.ShloMosaic.ValueIdx
open Cert.GroupedMlp

/-- The body's product contracts the second axis of both operands. -/
theorem dims : Cert.DotRowsByRows.RowsByRows dot_S4096x64_S64x64_S4096x64_1_1_0_0_n_n := ⟨rfl, rfl, rfl, rfl, rfl, rfl⟩

/-- An offset vector spread along the rows of a block, at an entry. -/
theorem spread_apply (b : FVec Ideal S64 .f32) (n : Fin 4096) (f : Fin 64) :
    broadcastTo S4096x64 (shapeCast S1x64 b shapeCasts_S64_S1x64) broadcasts_S1x64_S4096x64 (ix2 n f) = b (ix1 f) := by
  refine (broadcastTo_apply _ broadcasts_S1x64_S4096x64 (ix2 n f) (ix2 (0 : Fin 1) f) (fun a => match a with
    | ⟨0, _⟩ => by show 0 = if (1 : Nat) = 1 then 0 else n.val; rw [if_pos rfl]
    | ⟨1, _⟩ => by show f.val = if (64 : Nat) = 1 then 0 else f.val; rw [if_neg (by decide)])).trans ?_
  exact shapeCast_apply b shapeCasts_S64_S1x64 (ix2 (0 : Fin 1) f) (ix1 f) (by
    rw [Shape.rowMajor_val_one, Shape.rowMajor_val_two]
    show f.val = 0 * 64 + f.val
    omega)

/-- One layer of the body, at an entry, is the specification's layer of row n. -/
theorem step_apply (x : FVec Ideal S4096x64 .f32) (w : FVec Ideal S64x64 .f32) (b : FVec Ideal S64 .f32) (n : Fin 4096) (f : Fin 64) :
    maximumf (F := Ideal) (addf (F := Ideal) (matmul (F := Ideal) (φ₁ := .f32) (φ₂ := .f32) dot_S4096x64_S64x64_S4096x64_1_1_0_0_n_n none x w (constant (F := Ideal) S4096x64 .f32 0x00000000#32))
        (broadcastTo S4096x64 (shapeCast S1x64 b shapeCasts_S64_S1x64) broadcasts_S1x64_S4096x64))
      (broadcast S4096x64 (Scalar.ofBits (F := Ideal) .f32 0x00000000#32)) (ix2 n f)
    = layer (fun f d => w (ix2 f d)) (fun f => b (ix1 f)) (fun d => x (ix2 n d)) f := by
  unfold layer
  rw [maximumf_apply, addf_apply, spread_apply,
    Cert.DotRowsByRows.matmul_zero_apply dims rfl rfl none x w n f]
  rfl

theorem hz3 : (![0, 0, 0] : Fin 3 → Nat) = fun _ => 0 := funext fun a => by fin_cases a <;> rfl

/-- A layer depends only on the values of its weights, offsets and row. -/
theorem layer_congr {w w' : Fin 64 → Fin 64 → EReal} {b b' x x' : Fin 64 → EReal} (hw : ∀ f d, w f d = w' f d)
    (hb : ∀ f, b f = b' f) (hx : ∀ d, x d = x' d) (f : Fin 64) : layer w b x f = layer w' b' x' f := by
  obtain rfl : w = w' := funext fun f => funext (hw f)
  obtain rfl : b = b' := funext hb
  obtain rfl : x = x' := funext hx
  rfl

/-- Layer l's weight matrix as the body loads it from the block of the four, at an entry. -/
theorem wload_apply (x1 : Vec Ideal S1x4x64x64 .f32) (l : Nat) (hl : l < 4)
    (inb : ∀ a, (![0, l, 0, 0] : Fin 4 → Nat) a + S1x1x64x64.size a ≤ S1x4x64x64.size a) (f d : Fin 64) :
    shapeCast S64x64 (View.ld x1 (Rect.unit (s := S1x4x64x64) ![0, l, 0, 0] S1x1x64x64.size inb)) shapeCasts_S1x1x64x64_S64x64 (ix2 f d)
      = x1 (ix4 (0 : Fin 1) ⟨l, hl⟩ f d) := by
  refine (shapeCast_apply _ shapeCasts_S1x1x64x64_S64x64 (ix2 f d) (ix4 (0 : Fin 1) (0 : Fin 1) f d) (by
    rw [Shape.rowMajor_val_four, Shape.rowMajor_val_two]
    show ((0 * 1 + 0) * 64 + f.val) * 64 + d.val = f.val * 64 + d.val
    omega)).trans ?_
  exact congrArg x1 (funext fun a => Fin.ext (by
    match a with
    | ⟨0, _⟩ => show 0 + 1 * 0 = 0; omega
    | ⟨1, _⟩ => show l + 1 * 0 = l; omega
    | ⟨2, _⟩ => show 0 + 1 * f.val = f.val; omega
    | ⟨3, _⟩ => show 0 + 1 * d.val = d.val; omega))

/-- Layer l's offset vector as the body loads it from the block of the four, at an entry. -/
theorem bload_apply (x2 : Vec Ideal S1x4x64 .f32) (l : Nat) (hl : l < 4)
    (inb : ∀ a, (![0, l, 0] : Fin 3 → Nat) a + S1x1x64.size a ≤ S1x4x64.size a) (f : Fin 64) :
    shapeCast S64 (View.ld x2 (Rect.unit (s := S1x4x64) ![0, l, 0] S1x1x64.size inb)) shapeCasts_S1x1x64_S64 (ix1 f)
      = x2 (ix3 (0 : Fin 1) ⟨l, hl⟩ f) := by
  refine (shapeCast_apply _ shapeCasts_S1x1x64_S64 (ix1 f) (ix3 (0 : Fin 1) (0 : Fin 1) f) (by
    rw [Shape.rowMajor_val_three, Shape.rowMajor_val_one]
    show (0 * 1 + 0) * 64 + f.val = f.val
    omega)).trans ?_
  exact congrArg x2 (funext fun a => Fin.ext (by
    match a with
    | ⟨0, _⟩ => show 0 + 1 * 0 = 0; omega
    | ⟨1, _⟩ => show l + 1 * 0 = l; omega
    | ⟨2, _⟩ => show 0 + 1 * f.val = f.val; omega))

/-- The block of rows as the body loads it, viewed without its unit axis, at an entry. -/
theorem xload_apply (x0 : Vec Ideal S1x4096x64 .f32) (n : Fin 4096) (d : Fin 64) :
    shapeCast S4096x64 (View.ld x0 r0_0) shapeCasts_S1x4096x64_S4096x64 (ix2 n d) = x0 (ix3 (0 : Fin 1) n d) := by
  rw [View.ld_unit_zero hz3]
  exact shapeCast_apply x0 shapeCasts_S1x4096x64_S4096x64 (ix2 n d) (ix3 (0 : Fin 1) n d) (by
    rw [Shape.rowMajor_val_three, Shape.rowMajor_val_two]
    show (0 * 4096 + n.val) * 64 + d.val = n.val * 64 + d.val
    omega)

/-- The stored block at (0, n, f): the four layers applied to row n of the loaded block of rows, with layer l's weights
    and offsets read from the loaded blocks at (0, l, ·, ·) and (0, l, ·). -/
theorem out_apply (x0 : Vec Ideal S1x4096x64 .f32) (x1 : Vec Ideal S1x4x64x64 .f32) (x2 : Vec Ideal S1x4x64 .f32) (n : Fin 4096) (f : Fin 64) :
    out0_3 (F := Ideal) x0 x1 x2 (ix3 (0 : Fin 1) n f)
      = layer (fun f d => x1 (ix4 (0 : Fin 1) (3 : Fin 4) f d)) (fun f => x2 (ix3 (0 : Fin 1) (3 : Fin 4) f))
          (layer (fun f d => x1 (ix4 (0 : Fin 1) (2 : Fin 4) f d)) (fun f => x2 (ix3 (0 : Fin 1) (2 : Fin 4) f))
            (layer (fun f d => x1 (ix4 (0 : Fin 1) (1 : Fin 4) f d)) (fun f => x2 (ix3 (0 : Fin 1) (1 : Fin 4) f))
              (layer (fun f d => x1 (ix4 (0 : Fin 1) (0 : Fin 4) f d)) (fun f => x2 (ix3 (0 : Fin 1) (0 : Fin 4) f))
                (fun d => x0 (ix3 (0 : Fin 1) n d))))) f := by
  unfold out0_3
  rw [View.canon_unit_zero hz3]
  unfold k0_pay1 k0_pay2 k0_pay3
  dsimp only
  refine (shapeCast_apply _ shapeCasts_S4096x64_S1x4096x64 (ix3 (0 : Fin 1) n f) (ix2 n f) (by
    rw [Shape.rowMajor_val_two, Shape.rowMajor_val_three]
    show n.val * 64 + f.val = (0 * 4096 + n.val) * 64 + f.val
    omega)).trans ?_
  rw [step_apply]
  refine layer_congr (fun f d => wload_apply x1 3 (by decide) _ f d) (fun f => bload_apply x2 3 (by decide) _ f) (fun d3 => ?_) f
  rw [step_apply]
  refine layer_congr (fun f d => wload_apply x1 2 (by decide) _ f d) (fun f => bload_apply x2 2 (by decide) _ f) (fun d2 => ?_) d3
  rw [step_apply]
  refine layer_congr (fun f d => wload_apply x1 1 (by decide) _ f d) (fun f => bload_apply x2 1 (by decide) _ f) (fun d1 => ?_) d2
  rw [step_apply]
  exact layer_congr (fun f d => wload_apply x1 0 (by decide) _ f d) (fun f => bload_apply x2 0 (by decide) _ f) (fun d0 => xload_apply x0 n d0) d1

end Cert.KernelIdeal.Body

end
-- ==== Proof.KernelIndex.lean ====
/-
  The kernel's index maps in closed form. The grid's 512 points are numbered row-major over (group, tile) with 8 tiles
  to a group, so point t is (t / 8, t % 8). The rows' window and the output's window sit at block (t / 8, t % 8, 0);
  the weights' and the offsets' windows at block (t / 8, 0, …): they follow the group only. Decided over the grid.
-/
import proofs.«149812_j30004641530481_1_alg».proof.Proof.Gen.KernelIdeal.Frame

set_option maxRecDepth 16384

noncomputable section

namespace Cert.KernelIdeal.KIndex

open Cert.KernelIdeal Cert.KernelIdeal.Gen Idealize.ShloMosaic

theorem idx_closed : ∀ t : Fin cfg0.N,
    win0_3.index t (0 : Fin 3) = t.val / 8 ∧ win0_3.index t (1 : Fin 3) = t.val % 8 ∧ win0_3.index t (2 : Fin 3) = 0
    ∧ win0_0.index t (0 : Fin 3) = t.val / 8 ∧ win0_0.index t (1 : Fin 3) = t.val % 8 ∧ win0_0.index t (2 : Fin 3) = 0
    ∧ win0_1.index t (0 : Fin 4) = t.val / 8 ∧ win0_1.index t (1 : Fin 4) = 0
    ∧ win0_1.index t (2 : Fin 4) = 0 ∧ win0_1.index t (3 : Fin 4) = 0
    ∧ win0_2.index t (0 : Fin 3) = t.val / 8 ∧ win0_2.index t (1 : Fin 3) = 0 ∧ win0_2.index t (2 : Fin 3) = 0 :=
  (by decide +kernel : ∀ t : Fin grid0.N, _)

end Cert.KernelIdeal.KIndex

end
-- ==== Proof.KernelValue.lean ====
/-
  The kernel's result array.

  The grid has 64 × 8 points; point (g, i) loads rows i·4096 … i·4096 + 4095 of group g together with that group's
  weights and offsets, and writes back the same rows of the output. What it writes back is the specification's result of
  the rows by group, read through the point's block; the 512 blocks tile the output, so after the run the output on the
  three-axis view IS the specification's result. Around the region the program only changes the view: [2097152, 64] to
  [64, 32768, 64] before, and back after.
-/
import proofs.«149812_j30004641530481_1_alg».proof.Proof.KernelBody
import proofs.«149812_j30004641530481_1_alg».proof.Proof.KernelIndex
import Idealize.ShloMosaic.Lib.StableHlo.Run

set_option maxRecDepth 16384

noncomputable section

open scoped BigOperators

namespace Cert.KernelIdeal.KValue

open Cert.KernelIdeal Cert.KernelIdeal.Gen Cert.KernelIdeal.Body Idealize.ShloMosaic Idealize.ShloMosaic.ValueIdx
open Idealize.ShloMosaic.TcCoe Idealize.SL.Sem
open Cert.GroupedMlp

variable (m : (ℓ : Loc nD τ sig) → Buf (Elt Ideal) ℓ) (ρ : Dev nD → PrngReg)

/-- WHAT POINT t WRITES BACK is its block of the specification's result of the arrays as the region finds them: the
    output's block (t / 8, t % 8, 0) holds rows (t % 8)·4096 + n of group t / 8, computed from the same rows of the
    input and from that group's weights and offsets. -/
theorem flushed_eq (c : Dev nD) (t : Fin cfg0.N) :
    (dats m 0 c).flushed 3 t
      = ((cfg0.win 3).blk t).view.read (Elt Ideal) (result (V m c main_v0) (V m c main_arg1) (V m c main_arg2)) := by
  show (cfg0.win 3).cut (grid0.coords t) ((dats m 0 c).after 3 t) = _
  rw [after0_3]
  refine funext fun (j : S1x4096x64.Idx) => ?_
  obtain ⟨z, n, f, rfl⟩ : ∃ (z : Fin 1) (n : Fin 4096) (f : Fin 64), j = ix3 z n f := ⟨j 0, j 1, j 2, eq_ix3 j⟩
  obtain rfl : z = 0 := Subsingleton.elim _ _
  show out0_3 (iblk m c 0 t) (iblk m c 1 t) (iblk m c 2 t) (ix3 (0 : Fin 1) n f) = result (V m c main_v0) (V m c main_arg1) (V m c main_arg2) (((cfg0.win 3).blk t).view.emb (ix3 (0 : Fin 1) n f))
  refine (out_apply (iblk m c 0 t) (iblk m c 1 t) (iblk m c 2 t) n f).trans ?_
  obtain ⟨e30, e31, e32, e00, e01, e02, e10, e11, e12, e13, e20, e21, e22⟩ := KIndex.idx_closed t
  have ht : t.val < 512 := t.isLt
  have hn : n.val < 4096 := n.isLt
  have hemb : ((cfg0.win 3).blk t).view.emb (ix3 (0 : Fin 1) n f)
      = ix3 (⟨t.val / 8, by omega⟩ : Fin 64) (⟨t.val % 8 * 4096 + n.val, by omega⟩ : Fin 32768) f := by
    funext a; apply Fin.ext
    match a with
    | ⟨0, _⟩ => show win0_3.index t (0 : Fin 3) * 1 + 1 * 0 = t.val / 8; omega
    | ⟨1, _⟩ => show win0_3.index t (1 : Fin 3) * 4096 + 1 * n.val = t.val % 8 * 4096 + n.val; omega
    | ⟨2, _⟩ => show win0_3.index t (2 : Fin 3) * 64 + 1 * f.val = f.val; omega
  rw [hemb, result_apply]
  unfold net layerOf
  have hw : ∀ (l : Fin 4) (f d : Fin 64), (iblk m c 1 t : Vec Ideal S1x4x64x64 .f32) (ix4 (0 : Fin 1) l f d)
      = V m c main_arg1 (ix4 (⟨t.val / 8, by omega⟩ : Fin 64) l f d) := by
    intro l f d
    show V m c main_arg1 (((cfg0.win 1).blk t).view.emb (ix4 (0 : Fin 1) l f d)) = _
    refine congrArg (V m c main_arg1) (funext fun a => Fin.ext ?_)
    match a with
    | ⟨0, _⟩ => show win0_1.index t (0 : Fin 4) * 1 + 1 * 0 = t.val / 8; omega
    | ⟨1, _⟩ => show win0_1.index t (1 : Fin 4) * 4 + 1 * l.val = l.val; omega
    | ⟨2, _⟩ => show win0_1.index t (2 : Fin 4) * 64 + 1 * f.val = f.val; omega
    | ⟨3, _⟩ => show win0_1.index t (3 : Fin 4) * 64 + 1 * d.val = d.val; omega
  have hb : ∀ (l : Fin 4) (f : Fin 64), (iblk m c 2 t : Vec Ideal S1x4x64 .f32) (ix3 (0 : Fin 1) l f)
      = V m c main_arg2 (ix3 (⟨t.val / 8, by omega⟩ : Fin 64) l f) := by
    intro l f
    show V m c main_arg2 (((cfg0.win 2).blk t).view.emb (ix3 (0 : Fin 1) l f)) = _
    refine congrArg (V m c main_arg2) (funext fun a => Fin.ext ?_)
    match a with
    | ⟨0, _⟩ => show win0_2.index t (0 : Fin 3) * 1 + 1 * 0 = t.val / 8; omega
    | ⟨1, _⟩ => show win0_2.index t (1 : Fin 3) * 4 + 1 * l.val = l.val; omega
    | ⟨2, _⟩ => show win0_2.index t (2 : Fin 3) * 64 + 1 * f.val = f.val; omega
  have hx : ∀ d : Fin 64, (iblk m c 0 t : Vec Ideal S1x4096x64 .f32) (ix3 (0 : Fin 1) n d)
      = V m c main_v0 (ix3 (⟨t.val / 8, by omega⟩ : Fin 64) (⟨t.val % 8 * 4096 + n.val, by omega⟩ : Fin 32768) d) := by
    intro d
    show V m c main_v0 (((cfg0.win 0).blk t).view.emb (ix3 (0 : Fin 1) n d)) = _
    refine congrArg (V m c main_v0) (funext fun a => Fin.ext ?_)
    match a with
    | ⟨0, _⟩ => show win0_0.index t (0 : Fin 3) * 1 + 1 * 0 = t.val / 8; omega
    | ⟨1, _⟩ => show win0_0.index t (1 : Fin 3) * 4096 + 1 * n.val = t.val % 8 * 4096 + n.val; omega
    | ⟨2, _⟩ => show win0_0.index t (2 : Fin 3) * 64 + 1 * d.val = d.val; omega
  exact layer_congr (hw 3) (hb 3) (fun d3 => layer_congr (hw 2) (hb 2) (fun d2 => layer_congr (hw 1) (hb 1)
    (fun d1 => layer_congr (hw 0) (hb 0) hx d1) d2) d3) f

theorem mem_blk (t : Fin cfg0.N) (i : S64x32768x64.Idx) :
    i ∈ ((cfg0.win 3).blk t).view.set ↔ ∀ a : Fin 3, win0_3.index t a * S1x4096x64.size a ≤ (i a).val
      ∧ (i a).val < win0_3.index t a * S1x4096x64.size a + S1x4096x64.size a := by
  show i ∈ ((View.whole main_v1).slice (win0_3.rect t)).set ↔ _
  rw [View.set_slice_whole, Rect.mem_set_unit]
  exact Iff.rfl

theorem cover (i : S64x32768x64.Idx) : ∃ t : Fin cfg0.N, (cfg0.win 3).flush t = true ∧ i ∈ ((cfg0.win 3).blk t).view.set := by
  have h0 : (i 0).val < 64 := (i 0).isLt
  have h1 : (i 1).val < 32768 := (i 1).isLt
  have h2 : (i 2).val < 64 := (i 2).isLt
  have hlt : (i 0).val * 8 + (i 1).val / 4096 < cfg0.N := by show _ < 512; omega
  obtain ⟨e30, e31, e32, -⟩ := KIndex.idx_closed ⟨(i 0).val * 8 + (i 1).val / 4096, hlt⟩
  refine ⟨⟨(i 0).val * 8 + (i 1).val / 4096, hlt⟩, flush0_3 _, ?_⟩
  rw [mem_blk]
  intro a
  match a with
  | ⟨0, _⟩ =>
    show win0_3.index ⟨(i 0).val * 8 + (i 1).val / 4096, hlt⟩ (0 : Fin 3) * 1 ≤ (i 0).val ∧ (i 0).val < win0_3.index ⟨(i 0).val * 8 + (i 1).val / 4096, hlt⟩ (0 : Fin 3) * 1 + 1
    simp only [] at e30; omega
  | ⟨1, _⟩ =>
    show win0_3.index ⟨(i 0).val * 8 + (i 1).val / 4096, hlt⟩ (1 : Fin 3) * 4096 ≤ (i 1).val ∧ (i 1).val < win0_3.index ⟨(i 0).val * 8 + (i 1).val / 4096, hlt⟩ (1 : Fin 3) * 4096 + 4096
    simp only [] at e31; omega
  | ⟨2, _⟩ =>
    show win0_3.index ⟨(i 0).val * 8 + (i 1).val / 4096, hlt⟩ (2 : Fin 3) * 64 ≤ (i 2).val ∧ (i 2).val < win0_3.index ⟨(i 0).val * 8 + (i 1).val / 4096, hlt⟩ (2 : Fin 3) * 64 + 64
    omega

theorem final (c : Dev nD) :
    (dats m 0 c).arrAt 3 cfg0.N = result (V m c main_v0) (V m c main_arg1) (V m c main_arg2) :=
  (dats m 0 c).arrAt_eq_of_cover 3 _ (fun t _ => flushed_eq m c t) cover

/-- The rows by group as the region finds them: the argument under the first change of view. -/
theorem entry_rows (c : Dev nD) :
    (V m c main_v0 : S64x32768x64.Idx → EReal)
      = shapeCast S64x32768x64 (m ((c : Thread nD τ).loc main_arg0)) shapeCasts_S2097152x64_S64x32768x64 := by
  show StableHlo.after hostOps0 (fun b => m (c, b)) (Proc.devRef .tc main_v0) = _
  after_results
  rfl

/-- The program's result: the output array under the last change of view. -/
theorem tail_eq (c : Dev nD) :
    (Pipeline.afterTail₀ cfgs (dats m) 0 (V0 m) [hostOps1] c main_v2 : S2097152x64.Idx → EReal)
      = shapeCast S2097152x64 (result (V m c main_v0) (V m c main_arg1) (V m c main_arg2)) shapeCasts_S64x32768x64_S2097152x64 := by
  unfold Pipeline.afterTail₀
  show StableHlo.after hostOps1 _ (Proc.devRef .tc main_v2) = _
  after_results
  have h := (Pipeline.withArrays_arr spec0 launch0.win.arr_inj c (V0 m c) (fun w => (dats m 0 c).arrAt w (cfgs 0).N) 3).trans (final m c)
  exact congrArg (fun z => shapeCast S2097152x64 z shapeCasts_S64x32768x64_S2097152x64) h

/-- The run, read: the result is the specification's result of the argument rows by group, viewed back as
    [2097152, 64]; the arguments end as they began. -/
theorem run : θ_run defs (onTc (τ := τ) (main (F := Ideal))) ⟨m, fun _ => 0, ρ⟩ fun r => ∀ c : Dev nD,
      r.2.mem ((c.tc : Thread nD τ).loc main_v2)
        = shapeCast S2097152x64 (result (shapeCast S64x32768x64 (m ((c.tc : Thread nD τ).loc main_arg0)) shapeCasts_S2097152x64_S64x32768x64)
            (m ((c.tc : Thread nD τ).loc main_arg1)) (m ((c.tc : Thread nD τ).loc main_arg2))) shapeCasts_S64x32768x64_S2097152x64
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c =>
    ⟨(((h c).2 main_v2 (Pipeline.mem_restRefs_of main_v2 (by decide) (by decide))).trans (tail_eq m c)).trans
        (by rw [entry_rows, V_main_arg1, V_main_arg2]),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.KernelIdeal.KValue

end
-- ==== Proof.RefValue.lean ====
/-
  The reference's result on the three-axis view [group, row, feature].

  Its four layers are one term each of the same form: a batched product over the group axis contracting the feature axis
  of the rows with the input-feature axis of that layer's weights, the layer's offsets spread along the rows, and the
  maximum with zero. Read at an entry (g, n, f) such a term is the specification's layer applied to row (g, n) of its
  operand; composing the four gives the specification's result of the rows as first viewed by group.
-/
import proofs.«149812_j30004641530481_1_alg».proof.Proof.Gen.ReferenceIdeal.Read
import proofs.«149812_j30004641530481_1_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.ValueIdx
open Cert.GroupedMlp

/-- The batched product at an entry: group by group, row n of the left operand against row f of the right, summed over
    the shared feature axis. -/
theorem dot_apply (Z : (⟨S64x32768x64, .f32⟩ : BufTy).Contents (Elt Ideal)) (Wl : (⟨S64x64x64, .f32⟩ : BufTy).Contents (Elt Ideal))
    (g : Fin 64) (n : Fin 32768) (f : Fin 64) :
    Host.dotGeneral (F := Ideal) (φ₁ := .f32) (φ₂ := .f32) dot_S64x32768x64_S64x64x64_S64x32768x64_2_2_1_1_0_0 none Z Wl (ix3 g n f) = ∑ k : Fin 64, Z (ix3 g n k) * Wl (ix3 g f k) := by
  simp only [Host.dotGeneral]
  rw [Ideal.dotGeneral_apply, ← Equiv.sum_comp (contrEquiv1 dot_S64x32768x64_S64x64x64_S64x32768x64_2_2_1_1_0_0 64 rfl rfl).symm]
  refine Finset.sum_congr rfl fun k _ => ?_
  have hk := contrEquiv1_symm_val dot_S64x32768x64_S64x64x64_S64x32768x64_2_2_1_1_0_0 64 rfl rfl k
  have el : dot_S64x32768x64_S64x64x64_S64x32768x64_2_2_1_1_0_0.lhsIdx (ix3 g n f) ((contrEquiv1 dot_S64x32768x64_S64x64x64_S64x32768x64_2_2_1_1_0_0 64 rfl rfl).symm k) = ix3 g n k := funext fun a => Fin.ext (by
    match a with
    | ⟨0, _⟩ => exact lhs_main_v3_0 _ _
    | ⟨1, _⟩ => exact lhs_main_v3_1 _ _
    | ⟨2, _⟩ => exact (lhs_main_v3_2 _ _).trans hk)
  have er : dot_S64x32768x64_S64x64x64_S64x32768x64_2_2_1_1_0_0.rhsIdx (ix3 g n f) ((contrEquiv1 dot_S64x32768x64_S64x64x64_S64x32768x64_2_2_1_1_0_0 64 rfl rfl).symm k) = ix3 g f k := funext fun a => Fin.ext (by
    match a with
    | ⟨0, _⟩ => exact rhs_main_v3_0 _ _
    | ⟨1, _⟩ => exact rhs_main_v3_1 _ _
    | ⟨2, _⟩ => exact (rhs_main_v3_2 _ _).trans hk)
  rw [el, er]

/-- Layer l's weights, cut out of the packed weights and viewed [group, output feature, input feature], at an entry. -/
theorem wslice_apply (l : Nat) (hl : l < 4) (hs : S64x4x64x64.Slices ![0, l, 0, 0] S64x1x64x64)
    (x1 : (⟨S64x4x64x64, .f32⟩ : BufTy).Contents (Elt Ideal)) (g f k : Fin 64) :
    shapeCast S64x64x64 (extractStridedSlice S64x1x64x64 ![0, l, 0, 0] x1 hs) shapeCasts_S64x1x64x64_S64x64x64 (ix3 g f k)
      = x1 (ix4 g ⟨l, hl⟩ f k) := by
  rw [shapeCast_apply _ shapeCasts_S64x1x64x64_S64x64x64 (ix3 g f k) (ix4 g (0 : Fin 1) f k) (by
      rw [Shape.rowMajor_val_four, Shape.rowMajor_val_three]
      show ((g.val * 1 + 0) * 64 + f.val) * 64 + k.val = (g.val * 64 + f.val) * 64 + k.val
      omega)]
  exact extractStridedSlice_apply ![0, l, 0, 0] x1 hs (ix4 g (0 : Fin 1) f k) (ix4 g ⟨l, hl⟩ f k) (fun a => match a with
    | ⟨0, _⟩ => by show g.val = 0 + g.val; omega
    | ⟨1, _⟩ => by show l = l + 0; omega
    | ⟨2, _⟩ => by show f.val = 0 + f.val; omega
    | ⟨3, _⟩ => by show k.val = 0 + k.val; omega)

/-- Layer l's offsets, cut out of the packed offsets and spread along the rows, at an entry. -/
theorem bslice_apply (l : Nat) (hl : l < 4) (hs : S64x4x64.Slices ![0, l, 0] S64x1x64)
    (x2 : (⟨S64x4x64, .f32⟩ : BufTy).Contents (Elt Ideal)) (g : Fin 64) (n : Fin 32768) (f : Fin 64) :
    broadcastInDim S64x32768x64 ![0, 1, 2] bcast_S64x1x64_S64x32768x64_0_1_2
        (broadcastInDim S64x1x64 ![0, 2] bcast_S64x64_S64x1x64_0_2
          (shapeCast S64x64 (extractStridedSlice S64x1x64 ![0, l, 0] x2 hs) shapeCasts_S64x1x64_S64x64)) (ix3 g n f)
      = x2 (ix3 g ⟨l, hl⟩ f) := by
  refine (broadcastInDim_apply _ bcast_S64x1x64_S64x32768x64_0_1_2 _ (ix3 g n f) (ix3 g (0 : Fin 1) f) (fun a => match a with
    | ⟨0, _⟩ => by show g.val = if (64 : Nat) = 1 then 0 else g.val; rw [if_neg (by decide)]
    | ⟨1, _⟩ => by show 0 = if (1 : Nat) = 1 then 0 else n.val; rw [if_pos rfl]
    | ⟨2, _⟩ => by show f.val = if (64 : Nat) = 1 then 0 else f.val; rw [if_neg (by decide)])).trans ?_
  refine (broadcastInDim_apply _ bcast_S64x64_S64x1x64_0_2 _ (ix3 g (0 : Fin 1) f) (ix2 g f) (fun a => match a with
    | ⟨0, _⟩ => by show g.val = if (64 : Nat) = 1 then 0 else g.val; rw [if_neg (by decide)]
    | ⟨1, _⟩ => by show f.val = if (64 : Nat) = 1 then 0 else f.val; rw [if_neg (by decide)])).trans ?_
  refine (shapeCast_apply _ shapeCasts_S64x1x64_S64x64 (ix2 g f) (ix3 g (0 : Fin 1) f) (by
      rw [Shape.rowMajor_val_three, Shape.rowMajor_val_two]
      show (g.val * 1 + 0) * 64 + f.val = g.val * 64 + f.val
      omega)).trans ?_
  exact extractStridedSlice_apply ![0, l, 0] x2 hs (ix3 g (0 : Fin 1) f) (ix3 g ⟨l, hl⟩ f) (fun a => match a with
    | ⟨0, _⟩ => by show g.val = 0 + g.val; omega
    | ⟨1, _⟩ => by show l = l + 0; omega
    | ⟨2, _⟩ => by show f.val = 0 + f.val; omega)

/-- One layer of the reference as a function of its operand on the three-axis view. -/
def refLayer (l : Nat) (hs : S64x4x64x64.Slices ![0, l, 0, 0] S64x1x64x64) (hs' : S64x4x64.Slices ![0, l, 0] S64x1x64)
    (x1 : (⟨S64x4x64x64, .f32⟩ : BufTy).Contents (Elt Ideal)) (x2 : (⟨S64x4x64, .f32⟩ : BufTy).Contents (Elt Ideal))
    (Z : (⟨S64x32768x64, .f32⟩ : BufTy).Contents (Elt Ideal)) : (⟨S64x32768x64, .f32⟩ : BufTy).Contents (Elt Ideal) :=
  maximumf (F := Ideal) (addf (F := Ideal) (Host.dotGeneral (F := Ideal) (φ₁ := .f32) (φ₂ := .f32) dot_S64x32768x64_S64x64x64_S64x32768x64_2_2_1_1_0_0 none Z
        (shapeCast _ (extractStridedSlice S64x1x64x64 ![0, l, 0, 0] x1 hs) shapeCasts_S64x1x64x64_S64x64x64))
      (broadcastInDim S64x32768x64 ![0, 1, 2] bcast_S64x1x64_S64x32768x64_0_1_2
        (broadcastInDim S64x1x64 ![0, 2] bcast_S64x64_S64x1x64_0_2
          (shapeCast _ (extractStridedSlice S64x1x64 ![0, l, 0] x2 hs') shapeCasts_S64x1x64_S64x64))))
    (broadcastInDim S64x32768x64 ![] bcast_S_S64x32768x64 (constant (F := Ideal) S_ .f32 0x00000000#32))

/-- At an entry it is the specification's layer of that group applied to the operand's row. -/
theorem refLayer_apply (l : Nat) (hl : l < 4) (hs : S64x4x64x64.Slices ![0, l, 0, 0] S64x1x64x64) (hs' : S64x4x64.Slices ![0, l, 0] S64x1x64)
    (x1 : (⟨S64x4x64x64, .f32⟩ : BufTy).Contents (Elt Ideal)) (x2 : (⟨S64x4x64, .f32⟩ : BufTy).Contents (Elt Ideal))
    (Z : (⟨S64x32768x64, .f32⟩ : BufTy).Contents (Elt Ideal)) (g : Fin 64) (n : Fin 32768) (f : Fin 64) :
    refLayer l hs hs' x1 x2 Z (ix3 g n f) = layerOf x1 x2 g ⟨l, hl⟩ (fun d => Z (ix3 g n d)) f := by
  unfold refLayer layerOf layer
  rw [maximumf_apply, addf_apply, dot_apply, bslice_apply l hl hs' x2 g n f]
  refine congrArg₂ max (congrArg₂ (· + ·) (Finset.sum_congr rfl fun k _ => ?_) rfl) ?_
  · rw [wslice_apply l hl hs x1 g f k]
  · exact broadcastInDim_apply _ bcast_S_S64x32768x64 _ (ix3 g n f) ix0 (fun a => a.elim0)

/-- The reference's four layers on the rows by group are the specification's result. -/
theorem layers_eq (x1 : (⟨S64x4x64x64, .f32⟩ : BufTy).Contents (Elt Ideal)) (x2 : (⟨S64x4x64, .f32⟩ : BufTy).Contents (Elt Ideal))
    (Z : (⟨S64x32768x64, .f32⟩ : BufTy).Contents (Elt Ideal)) :
    refLayer 3 slices_S64x4x64x64_S64x1x64x64_0_3_0_0 slices_S64x4x64_S64x1x64_0_3_0 x1 x2
      (refLayer 2 slices_S64x4x64x64_S64x1x64x64_0_2_0_0 slices_S64x4x64_S64x1x64_0_2_0 x1 x2
        (refLayer 1 slices_S64x4x64x64_S64x1x64x64_0_1_0_0 slices_S64x4x64_S64x1x64_0_1_0 x1 x2
          (refLayer 0 slices_S64x4x64x64_S64x1x64x64_0_0_0_0 slices_S64x4x64_S64x1x64_0_0_0 x1 x2 Z)))
      = result Z x1 x2 := by
  funext j
  obtain ⟨g, n, f, rfl⟩ : ∃ (g : Fin 64) (n : Fin 32768) (f : Fin 64), j = ix3 g n f := ⟨j 0, j 1, j 2, eq_ix3 j⟩
  rw [result_apply, refLayer_apply 3 (by decide)]
  unfold net
  refine congrFun (congrArg (layerOf x1 x2 g 3) (funext fun d => ?_)) f
  rw [refLayer_apply 2 (by decide)]
  refine congrFun (congrArg (layerOf x1 x2 g 2) (funext fun d' => ?_)) d
  rw [refLayer_apply 1 (by decide)]
  refine congrFun (congrArg (layerOf x1 x2 g 1) (funext fun d'' => ?_)) d'
  rw [refLayer_apply 0 (by decide)]
  rfl

end Cert.ReferenceIdeal.RefValue

end
-- ==== Proof.lean ====
/-
  A grouped four-layer perceptron: 2,097,152 rows of 64 features in 64 consecutive groups of 32,768 rows, each group
  with its own four 64 × 64 weight matrices (stored output-feature first) and four offset vectors; every layer is
  x ↦ max (x · Wᵀ + b, 0).

  The kernel walks a 64 × 8 grid; at point (g, i) it holds 4,096 rows of group g with that group's weights and offsets
  and applies the four layers to the whole block. The reference applies each layer to all rows at once as a product
  batched over the group axis. On extended reals both compute, at row r of group g and feature f, the same expression —
  the same sums over the same 64 indices, the same offsets, the same maxima with the same zero — so the results agree
  entry by entry with no appeal to finiteness or to any law of arithmetic (Proof/Spec.lean states the expression;
  Proof/KernelValue.lean and Proof/RefValue.lean show each program computes it). Both programs view the rows as
  [64, 32768, 64] before and as [2097152, 64] after, so the comparison is made on the three-axis view.

  The three programs terminate without fault and leave their arguments unchanged; the idealized kernel is the kernel's
  own text read over extended reals (no rewrite was applied).
-/
import proofs.«149812_j30004641530481_1_alg».proof.Defs
import proofs.«149812_j30004641530481_1_alg».proof.Proof.Gen.Kernel
import proofs.«149812_j30004641530481_1_alg».proof.Proof.Gen.Kernel.Skeleton
import proofs.«149812_j30004641530481_1_alg».proof.Proof.Gen.Kernel.Launch
import proofs.«149812_j30004641530481_1_alg».proof.Proof.Gen.Kernel.Points
import proofs.«149812_j30004641530481_1_alg».proof.Proof.Gen.Kernel.Frame
import proofs.«149812_j30004641530481_1_alg».proof.Proof.Gen.KernelIdeal
import proofs.«149812_j30004641530481_1_alg».proof.Proof.Gen.KernelIdeal.Skeleton
import proofs.«149812_j30004641530481_1_alg».proof.Proof.Gen.KernelIdeal.Launch
import proofs.«149812_j30004641530481_1_alg».proof.Proof.Gen.KernelIdeal.Points
import proofs.«149812_j30004641530481_1_alg».proof.Proof.Gen.KernelIdeal.Frame
import proofs.«149812_j30004641530481_1_alg».proof.Proof.Gen.ReferenceIdeal
import proofs.«149812_j30004641530481_1_alg».proof.Proof.Gen.ReferenceIdeal.Run
import proofs.«149812_j30004641530481_1_alg».proof.Proof.Gen.Pre_finite_inputs
import proofs.«149812_j30004641530481_1_alg».proof.Proof.KernelValue
import proofs.«149812_j30004641530481_1_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference is host operations only: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments both programs end with the specification's result of the rows by group,
    viewed back as [2097152, 64]: the kernel's output array by its blocks, the reference's by its four batched layers. -/
theorem algebraic : Cert.algebraic_KernelIdeal_ReferenceIdeal := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact congrArg (fun z => shapeCast Cert.ReferenceIdeal.S2097152x64 z Cert.ReferenceIdeal.Gen.shapeCasts_S64x32768x64_S2097152x64)
    (Cert.ReferenceIdeal.RefValue.layers_eq _ _ _)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
